-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x256x1 : Shape := ⟨4, ![32, 2048, 256, 1]⟩
abbrev S256x256 : Shape := ⟨2, ![256, 256]⟩
abbrev S256x64 : Shape := ⟨2, ![256, 64]⟩
abbrev S_ : Shape := ⟨0, ![]⟩

class Facts : Prop where
  bcast_S_S32x2048x256x1 : S_.BroadcastsInDim S32x2048x256x1 (![] : Fin 0 → Fin S32x2048x256x1.rank)
  reducesTo_S32x2048x256x1_S_d0_1_2_3 : S32x2048x256x1.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S32x2048x256x1 .f32) (main_arg1 : FVec F S256x256 .f32) (main_arg2 : FVec F S256x64 .f32) : IVec S_ 1 :=
  let main_v0 : FVec F S32x2048x256x1 .f32 := Host.absf main_arg0
  let main_cst : FVec F S_ .f32 := constant S_ .f32 0x7F800000#32
  let main_v1 : FVec F S32x2048x256x1 .f32 := broadcastInDim S32x2048x256x1 ![] bcast_S_S32x2048x256x1 main_cst
  let main_v2 : IVec S32x2048x256x1 1 := cmpf .olt main_v0 main_v1
  let main_c : IVec S_ 1 := constantI S_ 1 1#1
  let main_v3 : IVec S_ 1 := (fun x v => Host.reduce IntOp.andi x v reducesTo_S32x2048x256x1_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Kernel.lean ====
abbrev S32x2048x256x1 : Shape := ⟨4, ![32, 2048, 256, 1]⟩
abbrev S256x256 : Shape := ⟨2, ![256, 256]⟩
abbrev S256x64 : Shape := ⟨2, ![256, 64]⟩
abbrev S32x2048x256 : Shape := ⟨3, ![32, 2048, 256]⟩
abbrev S65536x256 : Shape := ⟨2, ![65536, 256]⟩
abbrev S65536x64 : Shape := ⟨2, ![65536, 64]⟩
abbrev S4096x256 : Shape := ⟨2, ![4096, 256]⟩
abbrev S4096x64 : Shape := ⟨2, ![4096, 64]⟩
abbrev S32x2048x64x1 : Shape := ⟨4, ![32, 2048, 64, 1]⟩

abbrev nBuf : Space → Nat
  | .hbm => 8
  | .vmem => 6
  | .smem => 0
  | _ => 0

abbrev bufTy : (tb : Table) → Fin (tcTables nBuf tb) → BufTy
  | .hbm, ⟨0, _⟩ => ⟨S32x2048x256x1, .f32⟩
  | .hbm, ⟨1, _⟩ => ⟨S256x256, .f32⟩
  | .hbm, ⟨2, _⟩ => ⟨S256x64, .f32⟩
  | .hbm, ⟨3, _⟩ => ⟨S32x2048x256, .f32⟩
  | .hbm, ⟨4, _⟩ => ⟨S65536x256, .f32⟩
  | .hbm, ⟨5, _⟩ => ⟨S256x256, .f32⟩
  | .hbm, ⟨6, _⟩ => ⟨S65536x64, .f32⟩
  | .hbm, ⟨7, _⟩ => ⟨S32x2048x64x1, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S256x64, .f32⟩
  | .local _ .vmem, ⟨4, _⟩ => ⟨S4096x64, .f32⟩
  | .local _ .vmem, ⟨5, _⟩ => ⟨S4096x64, .f32⟩
  | _, _ => ⟨S32x2048x256x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x2048x256x1_S32x2048x256 : S32x2048x256x1.ShapeCasts S32x2048x256
  shapeCasts_S32x2048x256_S65536x256 : S32x2048x256.ShapeCasts S65536x256
  transposes_S256x256_S256x256_1_0 : S256x256.Transposes [1, 0] S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x64_S256x64_0_0 : ∀ a, (![0, 0] : Fin 2 → Nat) a + S256x64.size a ≤ S256x64.size a
  h_S256x64 : 0 < S256x64.numel
  inb_S4096x64_S4096x64_0_0 : ∀ a, (![0, 0] : Fin 2 → Nat) a + S4096x64.size a ≤ S4096x64.size a
  h_S4096x64 : 0 < S4096x64.numel
  shapeCasts_S65536x64_S32x2048x64x1 : S65536x64.ShapeCasts S32x2048x64x1
  dot_S4096x256_S256x256_S4096x256_1_0_0_1_n_n_wf : DotDims.WF S4096x256 S256x256 S4096x256 [1] [0] [0] [1] [] []
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S65536x64.size a
  hwx0_3 : ∀ i : grid0.Coords, EltTy.bits .f32 = 32 ∨ (Rect.block (s := S65536x64) S4096x64.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_v1) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x256x1 : Shape := ⟨4, ![32, 2048, 256, 1]⟩
abbrev S256x256 : Shape := ⟨2, ![256, 256]⟩
abbrev S256x64 : Shape := ⟨2, ![256, 64]⟩
abbrev S32x2048x256 : Shape := ⟨3, ![32, 2048, 256]⟩
abbrev S32x2048x64 : Shape := ⟨3, ![32, 2048, 64]⟩
abbrev S_ : Shape := ⟨0, ![]⟩
abbrev S32x2048x64x1 : Shape := ⟨4, ![32, 2048, 64, 1]⟩

abbrev nBuf : Space → Nat
  | .hbm => 10
  | .vmem => 0
  | .smem => 0
  | _ => 0

abbrev bufTy : (tb : Table) → Fin (tcTables nBuf tb) → BufTy
  | .hbm, ⟨0, _⟩ => ⟨S32x2048x256x1, .f32⟩
  | .hbm, ⟨1, _⟩ => ⟨S256x256, .f32⟩
  | .hbm, ⟨2, _⟩ => ⟨S256x64, .f32⟩
  | .hbm, ⟨3, _⟩ => ⟨S32x2048x256, .f32⟩
  | .hbm, ⟨4, _⟩ => ⟨S32x2048x256, .f32⟩
  | .hbm, ⟨5, _⟩ => ⟨S32x2048x64, .f32⟩
  | .hbm, ⟨6, _⟩ => ⟨S_, .f32⟩
  | .hbm, ⟨7, _⟩ => ⟨S32x2048x64, .f32⟩
  | .hbm, ⟨8, _⟩ => ⟨S32x2048x64, .f32⟩
  | .hbm, ⟨9, _⟩ => ⟨S32x2048x64x1, .f32⟩
  | _, _ => ⟨S32x2048x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  shapeCasts_S32x2048x256x1_S32x2048x256 : S32x2048x256x1.ShapeCasts S32x2048x256
  bcast_S_S32x2048x64 : S_.BroadcastsInDim S32x2048x64 (![] : Fin 0 → Fin S32x2048x64.rank)
  bcast_S32x2048x64_S32x2048x64x1_0_1_2 : S32x2048x64.BroadcastsInDim S32x2048x64x1 (![0, 1, 2] : Fin 3 → Fin S32x2048x64x1.rank)
  dot_S32x2048x256_S256x256_S32x2048x256_2_1_01_0_n_n_wf : DotDims.WF S32x2048x256 S256x256 S32x2048x256 [2] [1] [0, 1] [0] [] []
  dot_S32x2048x256_S256x64_S32x2048x64_2_0_01_1_n_n_wf : DotDims.WF S32x2048x256 S256x64 S32x2048x64 [2] [0] [0, 1] [1] [] []

variable [Facts₀]

def dot_S32x2048x256_S256x256_S32x2048x256_2_1_01_0_n_n : DotDims S32x2048x256 S256x256 S32x2048x256 where
  lhsContracting := [2]
  rhsContracting := [1]
  lhsNonContracting := [0, 1]
  rhsNonContracting := [0]
  lhsBatch := []
  rhsBatch := []
  wf := dot_S32x2048x256_S256x256_S32x2048x256_2_1_01_0_n_n_wf
def dot_S32x2048x256_S256x64_S32x2048x64_2_0_01_1_n_n : DotDims S32x2048x256 S256x64 S32x2048x64 where
  lhsContracting := [2]
  rhsContracting := [0]
  lhsNonContracting := [0, 1]
  rhsNonContracting := [1]
  lhsBatch := []
  rhsBatch := []
  wf := dot_S32x2048x256_S256x64_S32x2048x64_2_0_01_1_n_n_wf

class Facts : Prop extends Facts₀ where

variable [Facts]
-- ==== Proof.Spec.lean ====
/-
  The function both programs compute, on the extended reals.

  A graph-convolution layer: for each of the 32 x 2048 rows (b, t) of the input, the 256 node values are first mixed by the
  adjacency matrix, Ax[c] = Σ_n x[b,t,n] * A[c,n], then mapped to 64 features by the dense kernel, out[d] = Σ_c Ax[c] * W[c,d],
  and clamped below at zero. The kernel reads a row through the flattened [65536, 256] matrix and the transposed adjacency;
  the reference contracts the [32, 2048, 256] tensor with the adjacency's second axis. Both orders of the factors and both
  nestings of the two sums are the same, so one entry is literally one term: no law of the extended reals is needed,
  and the precondition (finite inputs) is never opened.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace GraphConv

/-- One entry of relu((X * transpose A) * W), from the row `xrow` of `X`, the mixing matrix read as `At n c` (the weight of
    neighbour `n` in node `c`) and the column `wcol` of `W`: the sum over the nodes `c` of (the sum over the neighbours `n` of
    `xrow n * At n c`) times `wcol c`, clamped below at zero (the word both programs spell). -/
def entry (xrow : Fin 256 → EReal) (At : Fin 256 → Fin 256 → EReal) (wcol : Fin 256 → EReal) : EReal :=
  max (∑ c : Fin 256, (∑ n : Fin 256, xrow n * At n c) * wcol c) (Ideal.ofBits .f32 0x00000000#32)

/-- Two entries are equal when their rows, mixing matrices and columns agree pointwise. -/
theorem entry_congr {f g : Fin 256 → EReal} {M N : Fin 256 → Fin 256 → EReal} {u v : Fin 256 → EReal}
    (h1 : ∀ n, f n = g n) (h2 : ∀ n c, M n c = N n c) (h3 : ∀ c, u c = v c) : entry f M u = entry g N v := by
  rw [show f = g from funext h1, show M = N from funext fun n => funext (h2 n), show u = v from funext h3]

/-- The layer's result as one function of the three argument arrays, index by index: entry (b, t, d, 0) is `entry` of
    row (b, t) of `x`, of `A` read transposed, and of column `d` of `W`. -/
def layer (x : (⟨4, ![32, 2048, 256, 1]⟩ : Shape).Idx → EReal) (A : (⟨2, ![256, 256]⟩ : Shape).Idx → EReal)
    (W : (⟨2, ![256, 64]⟩ : Shape).Idx → EReal) : (⟨4, ![32, 2048, 64, 1]⟩ : Shape).Idx → EReal := fun i =>
  entry (fun n => x (ix4 (⟨(i 0).val, (i 0).isLt⟩ : Fin 32) (⟨(i 1).val, (i 1).isLt⟩ : Fin 2048) n (⟨0, Nat.one_pos⟩ : Fin 1)))
    (fun n c => A (ix2 c n))
    (fun c => W (ix2 c (⟨(i 2).val, (i 2).isLt⟩ : Fin 64)))

end GraphConv

end
-- ==== Proof.RefSide.lean ====
/-
  The reference's result is the layer function: its stages (squeeze, two contractions, the clamp, the trailing unit axis)
  read at an index compose to exactly `GraphConv.entry` of the row, the transposed adjacency and the column.
-/
import proofs.«126088_j8976481649176_1_alg».proof.Proof.Gen.ReferenceIdeal.Run
import proofs.«126088_j8976481649176_1_alg».proof.Proof.Gen.ReferenceIdeal.Read
import proofs.«126088_j8976481649176_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- Row (b, t), neighbour n of the squeezed input is entry (b, t, n, 0) of the argument. -/
theorem x_idx (i : S32x2048x64x1.Idx) (c n : Fin 256) :
    idx_main_v0 (lidx_main_v1 (lidx_main_v2 (idx_main_v4 i) c) n)
      = ix4 (⟨(i 0).val, (i 0).isLt⟩ : Fin 32) (⟨(i 1).val, (i 1).isLt⟩ : Fin 2048) n (⟨0, Nat.one_pos⟩ : Fin 1) := by
  have h0 : (i 0).val < 32 := (i 0).isLt
  have h1 : (i 1).val < 2048 := (i 1).isLt
  have hn : n.val < 256 := n.isLt
  funext a; apply Fin.ext
  match a with
  | ⟨0, _⟩ => show (((i 0).val * 2048 + (i 1).val) * 256 + n.val) / 524288 = (i 0).val; omega
  | ⟨1, _⟩ => show (((i 0).val * 2048 + (i 1).val) * 256 + n.val) / 256 % 2048 = (i 1).val; omega
  | ⟨2, _⟩ => show (((i 0).val * 2048 + (i 1).val) * 256 + n.val) / 1 % 256 = n.val; omega
  | ⟨3, _⟩ => rfl

/-- The first contraction meets the adjacency at (c, n). -/
theorem a_idx (i : S32x2048x64x1.Idx) (c n : Fin 256) :
    ridx_main_v1 (lidx_main_v2 (idx_main_v4 i) c) n = ix2 c n := by
  funext a; apply Fin.ext
  match a with
  | ⟨0, _⟩ => rfl
  | ⟨1, _⟩ => rfl

/-- The second contraction meets the dense kernel at (c, d). -/
theorem w_idx (i : S32x2048x64x1.Idx) (c : Fin 256) :
    ridx_main_v2 (idx_main_v4 i) c = ix2 c (⟨(i 2).val, (i 2).isLt⟩ : Fin 64) := by
  funext a; apply Fin.ext
  match a with
  | ⟨0, _⟩ => rfl
  | ⟨1, _⟩ => rfl

/-- The reference's last stage is the layer function of the arguments. -/
theorem ref_eq (x : (⟨S32x2048x256x1, .f32⟩ : BufTy).Contents (Elt Ideal)) (A : (⟨S256x256, .f32⟩ : BufTy).Contents (Elt Ideal))
    (W : (⟨S256x64, .f32⟩ : BufTy).Contents (Elt Ideal)) :
    val_main_v4 (F := Ideal) x A W = GraphConv.layer x A W := by
  funext i
  rw [val_main_v4_apply, val_main_v3_apply, val_main_v2_apply, val_main_call0_v0_apply, val_main_call0_cst_apply]
  simp only [val_main_v1_apply, val_main_v0_apply, x_idx, a_idx, w_idx, Ideal.maximumf_def, Ideal.ofBits_def]
  rfl

end Cert.ReferenceIdeal.RefValue

end
-- ==== Proof.KernelPayload.lean ====
/-
  The kernel body's stored value at one entry of its [4096, 64] output block: the two matrix products into zero accumulators
  are plain sums over the contracted axis at the exact instance, the changes of float format are the identity, and the final
  maximum with the splat zero is the clamp — so entry (p, d) is `GraphConv.entry` of row p of the input block, the
  (already transposed) adjacency block and column d of the dense-kernel block.
-/
import proofs.«126088_j8976481649176_1_alg».proof.Proof.Gen.KernelIdeal.Skeleton
import proofs.«126088_j8976481649176_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Hand

open Cert.KernelIdeal Cert.KernelIdeal.Gen

/-! ## The two contractions' operand indices, axis by axis -/

theorem lhsA_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhsA_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhsA_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhsA_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

theorem lhsW_0 (i : S4096x64.Idx) (q : dot_S4096x256_S256x64_S4096x64_1_0_0_1_n_n.contr.Idx) :
    (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem lhsW_1 (i : S4096x64.Idx) (q : dot_S4096x256_S256x64_S4096x64_1_0_0_1_n_n.contr.Idx) :
    (dot_S4096x256_S256x64_S4096x64_1_0_0_1_n_n.lhsIdx i q 1).val = (q ⟨0, by decide⟩).val :=
  dot_S4096x256_S256x64_S4096x64_1_0_0_1_n_n.lhsIdx_val_of_single rfl i q
theorem rhsW_0 (i : S4096x64.Idx) (q : dot_S4096x256_S256x64_S4096x64_1_0_0_1_n_n.contr.Idx) :
    (dot_S4096x256_S256x64_S4096x64_1_0_0_1_n_n.rhsIdx i q 0).val = (q ⟨0, by decide⟩).val :=
  dot_S4096x256_S256x64_S4096x64_1_0_0_1_n_n.rhsIdx_val_of_single rfl i q
theorem rhsW_1 (i : S4096x64.Idx) (q : dot_S4096x256_S256x64_S4096x64_1_0_0_1_n_n.contr.Idx) :
    (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

/-! ## The two products at an entry -/

/-- The mixing product (rows of the block times the transposed adjacency) at (p, d): the sum over the neighbours k. -/
theorem mmA_apply {φ₁ φ₂ : FTy} (l : FVec Ideal S4096x256 φ₁) (r : FVec Ideal S256x256 φ₂) (p : Fin 4096) (d : Fin 256) :
    FloatOps.matmul dot_S4096x256_S256x256_S4096x256_1_0_0_1_n_n none l r (constant (F := Ideal) S4096x256 .f32 0x00000000#32) (ix2 p d)
      = ∑ k : Fin 256, l (ix2 p k) * r (ix2 k d) := by
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 p d) ((ValueIdx.contrEquiv1 dot_S4096x256_S256x256_S4096x256_1_0_0_1_n_n 256 rfl rfl).symm k) = ix2 p k := funext fun a => Fin.ext (by
    match a with
    | ⟨0, _⟩ => exact lhsA_0 _ _
    | ⟨1, _⟩ => exact (lhsA_1 _ _).trans hk)
  have er : dot_S4096x256_S256x256_S4096x256_1_0_0_1_n_n.rhsIdx (ix2 p d) ((ValueIdx.contrEquiv1 dot_S4096x256_S256x256_S4096x256_1_0_0_1_n_n 256 rfl rfl).symm k) = ix2 k d := funext fun a => Fin.ext (by
    match a with
    | ⟨0, _⟩ => exact (rhsA_0 _ _).trans hk
    | ⟨1, _⟩ => exact rhsA_1 _ _)
  rw [el, er]

/-- The feature product (mixed rows times the dense kernel) at (p, d): the sum over the nodes k. -/
theorem mmW_apply {φ₁ φ₂ : FTy} (l : FVec Ideal S4096x256 φ₁) (r : FVec Ideal S256x64 φ₂) (p : Fin 4096) (d : Fin 64) :
    FloatOps.matmul dot_S4096x256_S256x64_S4096x64_1_0_0_1_n_n none l r (constant (F := Ideal) S4096x64 .f32 0x00000000#32) (ix2 p d)
      = ∑ k : Fin 256, l (ix2 p k) * r (ix2 k d) := by
  rw [Ideal.matmul_constant_zero_apply, ← Equiv.sum_comp (ValueIdx.contrEquiv1 dot_S4096x256_S256x64_S4096x64_1_0_0_1_n_n 256 rfl rfl).symm]
  refine Finset.sum_congr rfl fun k _ => ?_
  have hk := ValueIdx.contrEquiv1_symm_val dot_S4096x256_S256x64_S4096x64_1_0_0_1_n_n 256 rfl rfl k
  have el : dot_S4096x256_S256x64_S4096x64_1_0_0_1_n_n.lhsIdx (ix2 p d) ((ValueIdx.contrEquiv1 dot_S4096x256_S256x64_S4096x64_1_0_0_1_n_n 256 rfl rfl).symm k) = ix2 p k := funext fun a => Fin.ext (by
    match a with
    | ⟨0, _⟩ => exact lhsW_0 _ _
    | ⟨1, _⟩ => exact (lhsW_1 _ _).trans hk)
  have er : dot_S4096x256_S256x64_S4096x64_1_0_0_1_n_n.rhsIdx (ix2 p d) ((ValueIdx.contrEquiv1 dot_S4096x256_S256x64_S4096x64_1_0_0_1_n_n 256 rfl rfl).symm k) = ix2 k d := funext fun a => Fin.ext (by
    match a with
    | ⟨0, _⟩ => exact (rhsW_0 _ _).trans hk
    | ⟨1, _⟩ => exact rhsW_1 _ _)
  rw [el, er]

/-! ## The stored value at an entry -/

/-- Entry (p, d) of what the body stores, from the three loaded blocks. -/
theorem pay_ix (x0 : Vec Ideal S4096x256 .f32) (x1 : Vec Ideal S256x256 .f32) (x2 : Vec Ideal S256x64 .f32) (p : Fin 4096) (d : Fin 64) :
    k0_pay1 (F := Ideal) x0 x1 x2 (ix2 p d)
      = GraphConv.entry (fun n => x0 (ix2 p n)) (fun n c => x1 (ix2 n c)) (fun c => x2 (ix2 c d)) := by
  unfold k0_pay1 GraphConv.entry
  simp only [matmul, maximumf_apply, broadcast_apply, mmW_apply, truncf_apply, mmA_apply, shapeCast_self]
  rfl

/-- The same at any index of the block, its two coordinates read off. -/
theorem pay_apply (x0 : Vec Ideal S4096x256 .f32) (x1 : Vec Ideal S256x256 .f32) (x2 : Vec Ideal S256x64 .f32) (y : S4096x64.Idx) :
    k0_pay1 (F := Ideal) x0 x1 x2 y
      = GraphConv.entry (fun n => x0 (ix2 (⟨(y 0).val, (y 0).isLt⟩ : Fin 4096) n)) (fun n c => x1 (ix2 n c))
          (fun c => x2 (ix2 c (⟨(y 1).val, (y 1).isLt⟩ : Fin 64))) := by
  obtain ⟨p, d, rfl⟩ : ∃ (p : Fin 4096) (d : Fin 64), y = ix2 p d := ⟨y 0, y 1, eq_ix2 y⟩
  exact pay_ix x0 x1 x2 p d

end Cert.KernelIdeal.Hand

end
-- ==== Proof.KernelBlocks.lean ====
/-
  From the blocks to the array. Grid point t stages rows 4096 t … 4096 t + 4095 of the flattened [65536, 256] input, the whole
  transposed adjacency and the whole dense kernel, and writes back rows 4096 t … 4096 t + 4095 of the [65536, 64] result. So what
  point t writes is block t of ONE function of the arrays the region finds (`rowsOut`), the sixteen blocks tile the result,
  and the result array ends holding that function.
-/
import proofs.«126088_j8976481649176_1_alg».proof.Proof.Gen.KernelIdeal.Frame
import proofs.«126088_j8976481649176_1_alg».proof.Proof.KernelPayload
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The flattened result: entry (r, d) from row r of the flattened input `X`, the transposed adjacency `At` and column d of `W`. -/
def rowsOut (X : S65536x256.Idx → EReal) (At : S256x256.Idx → EReal) (W : S256x64.Idx → EReal) : S65536x64.Idx → EReal := fun i =>
  GraphConv.entry (fun n => X (ix2 (⟨(i 0).val, (i 0).isLt⟩ : Fin 65536) n)) (fun n c => At (ix2 n c))
    (fun c => W (ix2 c (⟨(i 1).val, (i 1).isLt⟩ : Fin 64)))

/-- The printed index maps over the grid: the input's row block moves with the output's, every other block index is zero,
    and the output's row block stays below sixteen. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 15 ∧ win0_3.index t (1 : Fin 2) = 0 :=
  (by decide +kernel : ∀ t : Fin grid0.N, _)

/-- Every row block of the result is some point's. -/
theorem idx_onto : ∀ q : Fin 16, ∃ t : Fin cfg0.N, win0_3.index t = ![q.val, 0] :=
  (by decide +kernel : ∀ q : Fin 16, ∃ t : Fin grid0.N, win0_3.index t = ![q.val, 0])

/-- The input block at point t, at (p, n), is the flattened input at the row the block index names. -/
theorem xblk_apply (c : Dev nD) (t : Fin cfg0.N) (y : S4096x256.Idx) (k : S65536x256.Idx)
    (hk0 : (k 0).val = win0_0.index t (0 : Fin 2) * 4096 + (y 0).val) (hk1 : (k 1).val = win0_0.index t (1 : Fin 2) * 256 + (y 1).val) :
    (iblk m c 0 t : Vec Ideal S4096x256 .f32) y = (V m c main_v1 : S65536x256.Idx → EReal) k := by
  unfold iblk
  rw [View.read_apply]
  show V m c main_v1 _ = V m c main_v1 _
  congr 1
  funext a; apply Fin.ext
  match a with
  | ⟨0, _⟩ => show win0_0.index t (0 : Fin 2) * 4096 + 1 * (y 0).val = (k 0).val; rw [hk0]; omega
  | ⟨1, _⟩ => show win0_0.index t (1 : Fin 2) * 256 + 1 * (y 1).val = (k 1).val; rw [hk1]; omega

/-- The adjacency block is the whole transposed adjacency. -/
theorem ablk_apply (c : Dev nD) (t : Fin cfg0.N) (y : S256x256.Idx) (k : S256x256.Idx)
    (hk0 : (k 0).val = win0_1.index t (0 : Fin 2) * 256 + (y 0).val) (hk1 : (k 1).val = win0_1.index t (1 : Fin 2) * 256 + (y 1).val) :
    (iblk m c 1 t : Vec Ideal S256x256 .f32) y = (V m c main_v2 : S256x256.Idx → EReal) k := by
  unfold iblk
  rw [View.read_apply]
  show V m c main_v2 _ = V m c main_v2 _
  congr 1
  funext a; apply Fin.ext
  match a with
  | ⟨0, _⟩ => show win0_1.index t (0 : Fin 2) * 256 + 1 * (y 0).val = (k 0).val; rw [hk0]; omega
  | ⟨1, _⟩ => show win0_1.index t (1 : Fin 2) * 256 + 1 * (y 1).val = (k 1).val; rw [hk1]; omega

/-- The dense-kernel block is the whole dense kernel. -/
theorem wblk_apply (c : Dev nD) (t : Fin cfg0.N) (y : S256x64.Idx) (k : S256x64.Idx)
    (hk0 : (k 0).val = win0_2.index t (0 : Fin 2) * 256 + (y 0).val) (hk1 : (k 1).val = win0_2.index t (1 : Fin 2) * 64 + (y 1).val) :
    (iblk m c 2 t : Vec Ideal S256x64 .f32) y = (V m c main_arg2 : S256x64.Idx → EReal) k := by
  unfold iblk
  rw [View.read_apply]
  show V m c main_arg2 _ = V m c main_arg2 _
  congr 1
  funext a; apply Fin.ext
  match a with
  | ⟨0, _⟩ => show win0_2.index t (0 : Fin 2) * 256 + 1 * (y 0).val = (k 0).val; rw [hk0]; omega
  | ⟨1, _⟩ => show win0_2.index t (1 : Fin 2) * 64 + 1 * (y 1).val = (k 1).val; rw [hk1]; omega

/-- What point t writes back is block t of `rowsOut` of the arrays as the region finds them. -/
theorem flushed_eq (c : Dev nD) (t : Fin cfg0.N) :
    (dats m 0 c).flushed 3 t
      = ((cfg0.win 3).blk t).view.read (Elt Ideal) (rowsOut (V m c main_v1) (V m c main_v2) (V m c main_arg2)) := by
  show (cfg0.win 3).cut (grid0.coords t) ((dats m 0 c).after 3 t) = _
  rw [after0_3]
  unfold out0_3
  rw [View.canon_unit_zero hz]
  simp only [View.ld_unit_zero (S := S4096x256) hz, View.ld_unit_zero (S := S256x256) hz, View.ld_unit_zero (S := S256x64) hz]
  obtain ⟨e0, e1, e2, e3, e4, e5, e6, e7⟩ := idx_facts t
  funext j
  have hj0 : (j 0).val < 4096 := (j 0).isLt
  have hj1 : (j 1).val < 64 := (j 1).isLt
  show k0_pay1 (F := Ideal) (iblk m c 0 t) (iblk m c 1 t) (iblk m c 2 t) j
    = rowsOut (V m c main_v1) (V m c main_v2) (V m c main_arg2) (((cfg0.win 3).blk t).view.emb j)
  refine (pay_apply (iblk m c 0 t) (iblk m c 1 t) (iblk m c 2 t) j).trans ?_
  unfold rowsOut
  refine GraphConv.entry_congr (fun n => ?_) (fun n c' => ?_) (fun c' => ?_)
  · refine xblk_apply m c t _ _ ?_ ?_
    · show win0_3.index t (0 : Fin 2) * 4096 + 1 * (j 0).val = win0_0.index t (0 : Fin 2) * 4096 + (j 0).val; omega
    · show n.val = win0_0.index t (1 : Fin 2) * 256 + n.val; omega
  · refine ablk_apply m c t _ _ ?_ ?_
    · show n.val = win0_1.index t (0 : Fin 2) * 256 + n.val; omega
    · show c'.val = win0_1.index t (1 : Fin 2) * 256 + c'.val; omega
  · refine wblk_apply m c t _ _ ?_ ?_
    · show c'.val = win0_2.index t (0 : Fin 2) * 256 + c'.val; omega
    · show win0_3.index t (1 : Fin 2) * 64 + 1 * (j 1).val = win0_2.index t (1 : Fin 2) * 64 + (j 1).val; omega

/-- An index of the result is in point t's block iff each coordinate is in the block's range on its axis. -/
theorem mem_blk (t : Fin cfg0.N) (i : S65536x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v3).slice (win0_3.rect t)).set ↔ _
  rw [View.set_slice_whole, Rect.mem_set_unit]
  exact Iff.rfl

/-- Row r of the result lies in the block of the point whose row block is r / 4096: the sixteen blocks cover the array. -/
theorem cover (i : S65536x64.Idx) : ∃ t : Fin cfg0.N, (cfg0.win 3).flush t = true ∧ i ∈ ((cfg0.win 3).blk t).view.set := by
  have hi0 : (i 0).val < 65536 := (i 0).isLt
  have hi1 : (i 1).val < 64 := (i 1).isLt
  obtain ⟨t, ht⟩ := idx_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 64 ≤ (i 1).val ∧ (i 1).val < win0_3.index t (1 : Fin 2) * 64 + 64; omega

/-- The result array after the region: `rowsOut` of the arrays the region finds. -/
theorem final (c : Dev nD) :
    (dats m 0 c).arrAt 3 cfg0.N = rowsOut (V m c main_v1) (V m c main_v2) (V m c main_arg2) :=
  (dats m 0 c).arrAt_eq_of_cover 3 (rowsOut (V m c main_v1) (V m c main_v2) (V m c main_arg2)) (fun t _ => flushed_eq m c t) cover

end Cert.KernelIdeal.Hand

end
-- ==== Proof.KernelHost.lean ====
/-
  The kernel program around its region. Before it, the input is squeezed and flattened to [65536, 256] (row 2048 b + t is row
  (b, t)) and the adjacency is transposed; after it, the [65536, 64] result is reshaped to [32, 2048, 64, 1]. Read at an index,
  the program's result is the layer function of the three arguments.
-/
import proofs.«126088_j8976481649176_1_alg».proof.Proof.KernelBlocks
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The region finds the flattened input: the argument squeezed, then its two leading axes merged. -/
theorem V_rows (c : Dev nD) :
    (V m c main_v1 : S65536x256.Idx → EReal)
      = shapeCast S65536x256 (shapeCast S32x2048x256 (m ((c : Thread nD τ).loc main_arg0)) shapeCasts_S32x2048x256x1_S32x2048x256)
          shapeCasts_S32x2048x256_S65536x256 := by
  show StableHlo.after hostOps0 (fun b => m (c, b)) (Proc.devRef .tc main_v1) = _
  after_results <;> rfl

/-- The region finds the adjacency transposed. -/
theorem V_adjT (c : Dev nD) :
    (V m c main_v2 : S256x256.Idx → EReal)
      = transpose S256x256 [1, 0] (m ((c : Thread nD τ).loc main_arg1)) transposes_S256x256_S256x256_1_0 := by
  show StableHlo.after hostOps0 (fun b => m (c, b)) (Proc.devRef .tc main_v2) = _
  after_results <;> rfl

/-- After the region the program's result is the result array reshaped. -/
theorem tail_result (c : Dev nD) :
    Pipeline.afterTail₀ cfgs (dats m) 0 (V0 m) [hostOps1] c main_v4
      = shapeCast S32x2048x64x1 ((dats m 0 c).arrAt 3 cfg0.N) shapeCasts_S65536x64_S32x2048x64x1 := by
  unfold Pipeline.afterTail₀
  show StableHlo.after hostOps1 _ (Proc.devRef .tc main_v4) = _
  after_results
  exact congrArg (fun v => shapeCast S32x2048x64x1 v shapeCasts_S65536x64_S32x2048x64x1)
    (Pipeline.withArrays_arr spec0 launch0.win.arr_inj c _ _ 3)

/-- The flattened result of the flattened input and the transposed adjacency, reshaped, is the layer function. -/
theorem reshaped_rows_eq (x : S32x2048x256x1.Idx → EReal) (A : S256x256.Idx → EReal) (W : S256x64.Idx → EReal) :
    shapeCast S32x2048x64x1
        (rowsOut (shapeCast S65536x256 (shapeCast S32x2048x256 x shapeCasts_S32x2048x256x1_S32x2048x256) shapeCasts_S32x2048x256_S65536x256)
          (transpose S256x256 [1, 0] A transposes_S256x256_S256x256_1_0) W)
        shapeCasts_S65536x64_S32x2048x64x1
      = GraphConv.layer x A W := by
  funext i
  have h0 : (i 0).val < 32 := (i 0).isLt
  have h1 : (i 1).val < 2048 := (i 1).isLt
  have h2 : (i 2).val < 64 := (i 2).isLt
  have h3 : (i 3).val < 1 := (i 3).isLt
  refine (shapeCast_apply _ shapeCasts_S65536x64_S32x2048x64x1 i
    (ix2 (⟨(i 0).val * 2048 + (i 1).val, by omega⟩ : Fin 65536) (⟨(i 2).val, h2⟩ : Fin 64)) ?_).trans ?_
  · rw [Shape.rowMajor_val_two, Shape.rowMajor_val_four]
    show ((i 0).val * 2048 + (i 1).val) * 64 + (i 2).val = (((i 0).val * 2048 + (i 1).val) * 64 + (i 2).val) * 1 + (i 3).val
    omega
  · unfold rowsOut GraphConv.layer
    refine GraphConv.entry_congr (fun n => ?_) (fun n c => ?_) (fun c => rfl)
    · have hn : n.val < 256 := n.isLt
      refine (shapeCast_apply _ shapeCasts_S32x2048x256_S65536x256 _
        (ix3 (⟨(i 0).val, h0⟩ : Fin 32) (⟨(i 1).val, h1⟩ : Fin 2048) n) ?_).trans ?_
      · rw [Shape.rowMajor_val_three, Shape.rowMajor_val_two]
        show ((i 0).val * 2048 + (i 1).val) * 256 + n.val = ((i 0).val * 2048 + (i 1).val) * 256 + n.val
        rfl
      · refine shapeCast_apply _ shapeCasts_S32x2048x256x1_S32x2048x256 _
          (ix4 (⟨(i 0).val, h0⟩ : Fin 32) (⟨(i 1).val, h1⟩ : Fin 2048) n (⟨0, Nat.one_pos⟩ : Fin 1)) ?_
        rw [Shape.rowMajor_val_four, Shape.rowMajor_val_three]
        show (((i 0).val * 2048 + (i 1).val) * 256 + n.val) * 1 + 0 = ((i 0).val * 2048 + (i 1).val) * 256 + n.val
        omega
    · exact transpose_apply [1, 0] A transposes_S256x256_S256x256_1_0 (ix2 n c) (ix2 c n)
        (fun b => match b with | ⟨0, _⟩ => rfl | ⟨1, _⟩ => rfl)

/-- The kernel program's result, from the arguments as launched: the layer function. -/
theorem result_eq (c : Dev nD) :
    Pipeline.afterTail₀ cfgs (dats m) 0 (V0 m) [hostOps1] c main_v4
      = GraphConv.layer (m ((c : Thread nD τ).loc main_arg0)) (m ((c : Thread nD τ).loc main_arg1)) (m ((c : Thread nD τ).loc main_arg2)) := by
  rw [tail_result, final, V_rows, V_adjT, V_main_arg2]
  exact reshaped_rows_eq _ _ _

/-- The run, read: the result at the layer function of the arguments, the arguments unchanged. -/
theorem run : θ_run defs (onTc (τ := τ) (main (F := Ideal))) ⟨m, fun _ => 0, ρ⟩ fun r => ∀ c : Dev nD,
      r.2.mem ((c.tc : Thread nD τ).loc main_v4)
        = GraphConv.layer (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).1 2).trans (((dats m 0 c).arrAt_in 2 rfl _).trans ((A_eq m c 2).trans (V_main_arg2 m c)))⟩)
    (run_main m ρ)

end Cert.KernelIdeal.Hand

end
-- ==== Proof.lean ====
/-
  A graph-convolution layer, relu((X * transpose A) * W), computed by a row-blocked kernel against its einsum reference.

  The kernel flattens the [32, 2048, 256, 1] input to a [65536, 256] matrix, transposes the [256, 256] adjacency on the host, and
  in sixteen grid steps multiplies a [4096, 256] row block by the transposed adjacency, then by the [256, 64] dense kernel, clamps
  at zero and writes the [4096, 64] block of the result, which the host reshapes to [32, 2048, 64, 1]. The reference contracts the
  squeezed input with the adjacency's second axis, then with the dense kernel's first, and clamps.

  On the extended reals the kernel's changes of float format are the identity and each matrix product into a zero accumulator is
  the plain sum over the contracted axis, so entry (b, t, d, 0) of either result is
      max (Σ_c (Σ_n x[b,t,n,0] * A[c,n]) * W[c,d]) 0
  with the factors in the same order and the sums nested the same way: the two results are one term (`GraphConv.layer`), with no
  appeal to any law of the extended reals and none to the inputs' finiteness.

  Spec            the entry and the layer function
  RefSide         the reference's stages read at an index compose to the layer function
  KernelPayload   the body's stored value at an entry of its block
  KernelBlocks    what each grid point writes back is a block of one function of the arrays; the blocks tile the result
  KernelHost      the reshapes and the transpose around the region; the kernel program's run with its result named
-/
import proofs.«126088_j8976481649176_1_alg».proof.Defs
import proofs.«126088_j8976481649176_1_alg».proof.Proof.Gen.Kernel
import proofs.«126088_j8976481649176_1_alg».proof.Proof.Gen.Kernel.Skeleton
import proofs.«126088_j8976481649176_1_alg».proof.Proof.Gen.Kernel.Launch
import proofs.«126088_j8976481649176_1_alg».proof.Proof.Gen.Kernel.Points
import proofs.«126088_j8976481649176_1_alg».proof.Proof.Gen.Kernel.Frame
import proofs.«126088_j8976481649176_1_alg».proof.Proof.Gen.KernelIdeal
import proofs.«126088_j8976481649176_1_alg».proof.Proof.Gen.KernelIdeal.Skeleton
import proofs.«126088_j8976481649176_1_alg».proof.Proof.Gen.KernelIdeal.Launch
import proofs.«126088_j8976481649176_1_alg».proof.Proof.Gen.KernelIdeal.Points
import proofs.«126088_j8976481649176_1_alg».proof.Proof.Gen.KernelIdeal.Frame
import proofs.«126088_j8976481649176_1_alg».proof.Proof.Gen.ReferenceIdeal
import proofs.«126088_j8976481649176_1_alg».proof.Proof.Gen.ReferenceIdeal.Run
import proofs.«126088_j8976481649176_1_alg».proof.Proof.Gen.ReferenceIdeal.Read
import proofs.«126088_j8976481649176_1_alg».proof.Proof.Gen.Pre_finite_inputs
import proofs.«126088_j8976481649176_1_alg».proof.Proof.RefSide
import proofs.«126088_j8976481649176_1_alg».proof.Proof.KernelHost
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the three arguments, end with the layer function of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v4_eq (F := Ideal) _ _ _).trans (Cert.ReferenceIdeal.RefValue.ref_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
